-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 42
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x128, .f32⟩
  | .hbm, ⟨36, _⟩ => ⟨S_, .f32⟩
  | .hbm, ⟨37, _⟩ => ⟨S100000x128, .f32⟩
  | .hbm, ⟨38, _⟩ => ⟨S1700000x1, .i32⟩
  | .hbm, ⟨39, _⟩ => ⟨S100000x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S100000x128, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelHost.lean ====
/-
  What the host operations around the two kernels compute, as named functions of the edge list, and each
  buffer the kernels read, after its stretch of host operations, as such a function of the buffers the stretch
  started from.

  From the edge list `ei : [2, 1600000]` (row 0 the sources, row 1 the targets) the program forms
  `sources` and `targets` (each row followed by one self-loop per node: `0, 1, …, 99999`), the in-degree
  `degree` (a scatter-add of ones at the targets), the per-node factor `factor = degree > 0 ? degree^(-1/2) : 0`,
  kept as a column for the kernels; between the kernels it gathers the rows of the first kernel's result at the
  wrapped sources and scatter-adds them at the targets (`aggregate`).
-/
import proofs.«417281_j10161892622614_3_alg».proof.Proof.Gen.KernelIdeal.Frame

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-! ## The host functions -/

/-- The edges' sources, then one self-loop per node. -/
def sources (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩,
    ⟨S100000, iotaInDim S100000 32 0⟩] concatenates_S1600000_S100000_S1700000_d0

/-- The edges' targets, then one self-loop per node. -/
def targets (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩,
    ⟨S100000, iotaInDim S100000 32 0⟩] concatenates_S1600000_S100000_S1700000_d0

/-- The in-degree with self-loops: ones added at the targets. -/
def degree (ei : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (targets ei))
    (broadcastInDim S1700000 ![] bcast_S_S1700000 (constant S_ .f32 0x3F800000#32))

/-- `degree > 0 ? degree^(-1/2) : 0`. -/
def factor (ei : IVec S2x1600000 32) : FVec F S100000 .f32 :=
  select (cmpf .ogt (degree (F := F) ei) (broadcastInDim S100000 ![] bcast_S_S100000 (constant S_ .f32 0x00000000#32)))
    (Host.rsqrt (degree (F := F) ei))
    (broadcastInDim S100000 ![] bcast_S_S100000 (constant S_ .f32 0x00000000#32))

/-- The factor kept as a column. -/
def factorCol (ei : IVec S2x1600000 32) : FVec F S100000x1 .f32 :=
  shapeCast _ (factor (F := F) ei) shapeCasts_S100000_S100000x1

/-- An index vector with its negative entries wrapped by the node count, kept as a column. -/
def wrapCol (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Row `dst e` of a zero array receives, summed over the edges `e`, row `src e` (wrapped, clamped) of `rows`. -/
def aggregate (rows : FVec F S100000x128 .f32) (src dst : IVec S1700000 32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (Host.gather gather_S100000x128_S1700000x1_S1700000x128_1_0_n_n_0_1_1128 rows (wrapCol src))

/-- The bias kept as a row. -/
def biasRow (b : FVec F S128 .f32) : FVec F S1x128 .f32 := shapeCast _ b shapeCasts_S128_S1x128

/-! ## The first stretch (18 operations), from any contents `Vv` -/

variable (Vv : Valuation τ sig (Elt F))

theorem first_sources : StableHlo.after (hostOps0 (F := F)) Vv (Proc.devRef .tc main_v3) = sources (Vv (Proc.devRef .tc main_arg1)) := by
  dsimp only [hostOps0]; after_results; rfl
theorem first_targets : StableHlo.after (hostOps0 (F := F)) Vv (Proc.devRef .tc main_v6) = targets (Vv (Proc.devRef .tc main_arg1)) := by
  dsimp only [hostOps0]; after_results; rfl
theorem first_positive : StableHlo.after (hostOps0 (F := F)) Vv (Proc.devRef .tc main_v12)
    = cmpf .ogt (degree (F := F) (Vv (Proc.devRef .tc main_arg1))) (broadcastInDim S100000 ![] bcast_S_S100000 (constant S_ .f32 0x00000000#32)) := by
  dsimp only [hostOps0]; after_results; rfl
theorem first_rsqrt : StableHlo.after (hostOps0 (F := F)) Vv (Proc.devRef .tc main_v13)
    = Host.rsqrt (degree (F := F) (Vv (Proc.devRef .tc main_arg1))) := by
  dsimp only [hostOps0]; after_results; rfl
theorem first_zero : StableHlo.after (hostOps0 (F := F)) Vv (Proc.devRef .tc main_cst_2) = constant S_ .f32 0x00000000#32 := by
  dsimp only [hostOps0]; after_results
theorem first_arg0 : StableHlo.after (hostOps0 (F := F)) Vv (Proc.devRef .tc main_arg0) = Vv (Proc.devRef .tc main_arg0) := by
  dsimp only [hostOps0]; after_results
theorem first_arg2 : StableHlo.after (hostOps0 (F := F)) Vv (Proc.devRef .tc main_arg2) = Vv (Proc.devRef .tc main_arg2) := by
  dsimp only [hostOps0]; after_results
theorem first_arg3 : StableHlo.after (hostOps0 (F := F)) Vv (Proc.devRef .tc main_arg3) = Vv (Proc.devRef .tc main_arg3) := by
  dsimp only [hostOps0]; after_results

/-! ## The called `where` (3 operations): the guard picks the inverse square root or zero -/

theorem second_factor : StableHlo.after (hostOps0_1 (F := F)) Vv (Proc.devRef .tc main_v14)
    = select (Vv (Proc.devRef .tc main_v12)) (Vv (Proc.devRef .tc main_v13))
        (broadcastInDim S100000 ![] bcast_S_S100000 (Vv (Proc.devRef .tc main_cst_2))) := by
  dsimp only [hostOps0_1]; after_results; rfl
theorem second_keeps_main_v3 : StableHlo.after (hostOps0_1 (F := F)) Vv (Proc.devRef .tc main_v3) = Vv (Proc.devRef .tc main_v3) := by
  dsimp only [hostOps0_1]; after_results
theorem second_keeps_main_v6 : StableHlo.after (hostOps0_1 (F := F)) Vv (Proc.devRef .tc main_v6) = Vv (Proc.devRef .tc main_v6) := by
  dsimp only [hostOps0_1]; after_results
theorem second_keeps_main_arg0 : StableHlo.after (hostOps0_1 (F := F)) Vv (Proc.devRef .tc main_arg0) = Vv (Proc.devRef .tc main_arg0) := by
  dsimp only [hostOps0_1]; after_results
theorem second_keeps_main_arg2 : StableHlo.after (hostOps0_1 (F := F)) Vv (Proc.devRef .tc main_arg2) = Vv (Proc.devRef .tc main_arg2) := by
  dsimp only [hostOps0_1]; after_results
theorem second_keeps_main_arg3 : StableHlo.after (hostOps0_1 (F := F)) Vv (Proc.devRef .tc main_arg3) = Vv (Proc.devRef .tc main_arg3) := by
  dsimp only [hostOps0_1]; after_results

/-! ## The reshape to a column (1 operation) -/

theorem third_col : StableHlo.after (hostOps0_2 (F := F)) Vv (Proc.devRef .tc main_v15)
    = shapeCast _ (Vv (Proc.devRef .tc main_v14)) shapeCasts_S100000_S100000x1 := by
  dsimp only [hostOps0_2]; after_results; rfl
theorem third_keeps_main_v3 : StableHlo.after (hostOps0_2 (F := F)) Vv (Proc.devRef .tc main_v3) = Vv (Proc.devRef .tc main_v3) := by
  dsimp only [hostOps0_2]; after_results
theorem third_keeps_main_v6 : StableHlo.after (hostOps0_2 (F := F)) Vv (Proc.devRef .tc main_v6) = Vv (Proc.devRef .tc main_v6) := by
  dsimp only [hostOps0_2]; after_results
theorem third_keeps_main_arg0 : StableHlo.after (hostOps0_2 (F := F)) Vv (Proc.devRef .tc main_arg0) = Vv (Proc.devRef .tc main_arg0) := by
  dsimp only [hostOps0_2]; after_results
theorem third_keeps_main_arg2 : StableHlo.after (hostOps0_2 (F := F)) Vv (Proc.devRef .tc main_arg2) = Vv (Proc.devRef .tc main_arg2) := by
  dsimp only [hostOps0_2]; after_results
theorem third_keeps_main_arg3 : StableHlo.after (hostOps0_2 (F := F)) Vv (Proc.devRef .tc main_arg3) = Vv (Proc.devRef .tc main_arg3) := by
  dsimp only [hostOps0_2]; after_results

/-! ## Between the kernels (14 operations): gather at the wrapped sources, scatter-add at the targets -/

theorem between_rows : StableHlo.after (hostOps1 (F := F)) Vv (Proc.devRef .tc main_v26)
    = aggregate (Vv (Proc.devRef .tc main_v16)) (Vv (Proc.devRef .tc main_v3)) (Vv (Proc.devRef .tc main_v6)) := by
  dsimp only [hostOps1]; after_results; rfl
theorem between_bias : StableHlo.after (hostOps1 (F := F)) Vv (Proc.devRef .tc main_v27)
    = biasRow (Vv (Proc.devRef .tc main_arg3)) := by
  dsimp only [hostOps1]; after_results; rfl
theorem between_col : StableHlo.after (hostOps1 (F := F)) Vv (Proc.devRef .tc main_v15) = Vv (Proc.devRef .tc main_v15) := by
  dsimp only [hostOps1]; after_results

end Cert.KernelIdeal.HostValue

end
-- ==== Proof.Spec.lean ====
/-
  The two kernels' results as whole-array functions of the arrays they read, at the ideal instance
  (floats are extended reals). Nothing here mentions a program: the shapes are literal.

  * `scaledProduct x w s`: row `r` of the matrix product `x · w`, every entry multiplied by the
    row's scale `s r` (kept as a column `[n, 1]`).
  * `scaleShift a s b`: row `r` of `a` multiplied by the row's scale `s r`, then the row vector
    `b` (kept as `[1, d]`) added.
-/
import Idealize.ShloMosaic.PureOps.Ideal
import Idealize.ShloMosaic.Lib.ValueIdx

noncomputable section

open scoped BigOperators

namespace Cert.Spec

open Idealize.ShloMosaic Idealize.ShloMosaic.ValueIdx

/-- The node-feature arrays `[100000, 128]`. -/
abbrev Rows : Shape := ⟨2, ![100000, 128]⟩
/-- The weight `[128, 128]`. -/
abbrev Weight : Shape := ⟨2, ![128, 128]⟩
/-- A per-node scalar kept as a column `[100000, 1]`. -/
abbrev Col : Shape := ⟨2, ![100000, 1]⟩
/-- A per-feature scalar kept as a row `[1, 128]`. -/
abbrev Row1 : Shape := ⟨2, ![1, 128]⟩

/-- `(x · w)[r, q] · s[r]`: the matrix product, each row scaled by its node's factor. -/
def scaledProduct (x : Rows.Idx → EReal) (w : Weight.Idx → EReal) (s : Col.Idx → EReal) : Rows.Idx → EReal :=
  fun i => (∑ k : Fin 128, x (ix2 (i 0 : Fin 100000) k) * w (ix2 k (i 1 : Fin 128))) * s (ix2 (i 0 : Fin 100000) (0 : Fin 1))

/-- `a[r, q] · s[r] + b[q]`: each row scaled by its node's factor, then the bias row added. -/
def scaleShift (a : Rows.Idx → EReal) (s : Col.Idx → EReal) (b : Row1.Idx → EReal) : Rows.Idx → EReal :=
  fun i => a i * s (ix2 (i 0 : Fin 100000) (0 : Fin 1)) + b (ix2 (0 : Fin 1) (i 1 : Fin 128))

end Cert.Spec

end
-- ==== Proof.Region0.lean ====
/-
  REGION 0, the matrix product scaled row by row, as one function of the arrays it reads.

  The grid has 20 points; point `t` works on rows `[5000·t, 5000·t + 5000)`. Its body rounds both operands to bf16
  (the identity on extended reals), multiplies the `[5000, 128]` block of rows by the whole `[128, 128]` weight into a
  zero accumulator, multiplies every lane of row `p` by the row's scale (a `[5000, 1]` column spread along the 128
  lanes), and stores the block whole. Read at row `p`, lane `q` this is `(∑ k, x[p, k] · w[k, q]) · s[p]`; block `t`
  sits at rows `5000·t + p` of the arrays, and the 20 blocks cover the `[100000, 128]` output, so the output array ends
  as the scaled product of the whole arrays.
-/
import proofs.«417281_j10161892622614_3_alg».proof.Proof.Gen.KernelIdeal.Frame
import proofs.«417281_j10161892622614_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx Cert.KernelIdeal Cert.KernelIdeal.Gen
open Idealize.ShloMosaic.Pipeline (Dat)

/-! ## The matrix product at an index -/

theorem lhs_axis0 (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
theorem lhs_axis1 (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem rhs_axis0 (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem rhs_axis1 (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- The block product into a zero accumulator, read at row `p`, lane `q`: the sum over the shared axis. -/
theorem product_apply (a : FVec Ideal S5000x128 .bf16) (b : FVec Ideal S128x128 .bf16) (p : Fin 5000) (q : Fin 128) :
    matmul Cert.KernelIdeal.dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply Cert.KernelIdeal.dot_S5000x128_S128x128_S5000x128_1_0_0_1_n_n none a b (ix2 p q)).trans ?_
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A column `[5000, 1]` spread along the 128 lanes reads, at row `p` and any lane, the column's entry of row `p`. -/
theorem column_broadcast_apply (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ => rfl

/-- The body's stored value at row `p`, lane `q`: the product row times the row's scale. -/
theorem payload_apply (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ?_ ?_
  · exact product_apply _ _ p q
  · refine (column_broadcast_apply _ _ p q).trans ?_
    rw [shapeCast_self]

/-! ## From the blocks to the array -/

theorem origin_zero : (![0, 0] : Fin 2 → Nat) = fun _ => 0 := funext fun a => by fin_cases a <;> rfl

/-- The printed index maps, decided over the 20 points: the rows' windows sit at block row `t`, lane block 0; the
    weight's window is the whole weight. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row of the output is some point's. -/
theorem index_onto : ∀ (r : Fin 20), ∃ t : Fin cfg0.N, win0_3.index t = ![r.val, 0] :=
  (by decide +kernel : ∀ (r : Fin 20), ∃ t : Fin grid0.N, win0_3.index t = ![r.val, 0])

/-- At point `t`, the product of the rows' block with the whole weight, scaled by the column's block, read at row `p`
    and lane `q` of the block, is the scaled product of the whole arrays at the array index that block position has:
    row `5000·t + p` of the rows and of the column, every row of the weight. -/
theorem block_apply (x : S100000x128.Idx → EReal) (w : S128x128.Idx → EReal) (s : S100000x1.Idx → EReal)
    (t : Fin cfg0.N) (p : Fin 5000) (q : Fin 128) :
    (∑ k : Fin 128, x (((cfg0.win 0).blk t).view.emb (ix2 p k)) * w (((cfg0.win 1).blk t).view.emb (ix2 k q)))
        * s (((cfg0.win 2).blk t).view.emb (ix2 p (0 : Fin 1)))
      = Cert.Spec.scaledProduct x w s (((cfg0.win 3).blk t).view.emb (ix2 p q)) := by
  obtain ⟨e00, e01, e10, e11, e20, e21, e30, e31⟩ := index_facts t
  have h0 : ∀ k : Fin 128, ((cfg0.win 0).blk t).view.emb (ix2 p k)
      = ix2 ((((cfg0.win 3).blk t).view.emb (ix2 p q)) 0 : Fin 100000) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 3).blk t).view.emb (ix2 p q)) 1 : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1))
      = ix2 ((((cfg0.win 3).blk t).view.emb (ix2 p q)) 0 : Fin 100000) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  refine congrArg (· * _) (Finset.sum_congr rfl fun k _ => ?_)
  rw [h0 k, h1 k]
  rfl

variable (V : (c : Dev nD) → (b : Ref sig .tc) → Buf (Elt Ideal) ((c : Thread nD τ).loc b))

/-- WHAT POINT `t` WRITES BACK is block `t` of the scaled product of the arrays as the region finds them. -/
theorem flushed_eq (c : Dev nD) (t : Fin cfg0.N) :
    (dat0 (F := Ideal) V c).flushed 3 t
      = ((cfg0.win 3).blk t).view.read (Elt Ideal) (Cert.Spec.scaledProduct (V c main_arg0) (V c main_arg2) (V c main_v15)) := by
  show (cfg0.win 3).cut (grid0.coords t) ((dat0 (F := Ideal) V c).after 3 t) = _
  rw [after0_3]
  unfold out0_3
  rw [View.canon_unit_zero origin_zero]
  simp only [View.ld_unit_zero (S := S5000x128) origin_zero, View.ld_unit_zero (S := S128x128) origin_zero, View.ld_unit_zero (S := S5000x1) origin_zero]
  funext j
  obtain ⟨p, q, rfl⟩ : ∃ (p : Fin 5000) (q : Fin 128), j = ix2 p q := ⟨j 0, j 1, eq_ix2 j⟩
  refine (payload_apply (iblk0 V c 0 t) (iblk0 V c 1 t) (iblk0 V c 2 t) p q).trans ?_
  exact block_apply (V c main_arg0) (V c main_arg2) (V c main_v15) t p q

/-- An index of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the array lies in the block of point `r / 5000`: the twenty blocks of 5000 rows cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the region: the scaled product of the arrays the region read, as it found them. -/
theorem final (c : Dev nD) :
    (dat0 (F := Ideal) V c).arrAt 3 cfg0.N = Cert.Spec.scaledProduct (V c main_arg0) (V c main_arg2) (V c main_v15) :=
  (dat0 (F := Ideal) V c).arrAt_eq_of_cover 3 _ (fun t _ => flushed_eq V c t) covered

end Cert.KernelIdeal.Region0

end
-- ==== Proof.Region1.lean ====
/-
  REGION 1, the scale-and-shift kernel, as one equation between whole arrays.

  The grid has 20 points; point `t` works on rows `[5000·t, 5000·t + 5000)`. At a point the body reads a block
  `[5000, 128]` of the aggregated rows, the matching block `[5000, 1]` of the per-node scale column and the whole
  bias row `[1, 128]`; it broadcasts the column along the 128 lanes, multiplies, broadcasts the row along the 5000
  rows, adds, and stores the block whole. Three steps:

  * the stored value at row `p`, lane `q` is `x[p, q] · s[p, 0] + b[0, q]` (`payload_apply`);
  * what point `t` writes back is block `t` of `Spec.scaleShift` of the three arrays as the region finds them:
    each input block is read where the output block's rectangle says (`flushed_eq`);
  * the 20 output blocks tile the 100000 rows (`covered`), so the array ends holding `Spec.scaleShift` (`final`).
-/
import proofs.«417281_j10161892622614_3_alg».proof.Proof.Gen.KernelIdeal.Frame
import proofs.«417281_j10161892622614_3_alg».proof.Proof.Spec
import Idealize.ShloMosaic.Lib.ValueIdx
import Idealize.ShloMosaic.Lib.Pipeline.Value
import Idealize.ShloMosaic.Lib.ValueLayout

noncomputable section

namespace Cert.KernelIdeal.Region1

open Idealize.ShloMosaic Idealize.ShloMosaic.TcCoe Idealize.SL.Sem Idealize.ShloMosaic.ValueIdx Cert.KernelIdeal Cert.KernelIdeal.Gen

/-- The offsets of an access to a whole block are zero on both axes. -/
theorem zero_offsets : (![0, 0] : Fin 2 → Nat) = fun _ => 0 := funext fun a => by fin_cases a <;> rfl

/-- A column `[a, 1]` broadcast along `b` lanes reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, lane `q`: the row's entry times the row's scale, plus the lane's bias. -/
theorem payload_apply (x0 : Vec Ideal S5000x128 .f32) (x1 : Vec Ideal S5000x1 .f32) (x2 : Vec Ideal S1x128 .f32)
    (p : Fin 5000) (q : Fin 128) :
    k1_pay1 x0 x1 x2 (ix2 p q) = x0 (ix2 p q) * x1 (ix2 p (0 : Fin 1)) + x2 (ix2 (0 : Fin 1) q) := by
  unfold k1_pay1
  exact congrArg₂ (· + ·)
    (congrArg₂ (· * ·) (congrFun (shapeCast_self x0 _) _)
      ((broadcastTo_a1_ab_apply _ _ p q).trans (congrFun (shapeCast_self x1 _) _)))
    ((broadcastTo_1b_ab_apply _ _ p q).trans (congrFun (shapeCast_self x2 _) _))

variable (V : (c : Dev nD) → (b : Ref sig .tc) → Buf (Elt Ideal) ((c : Thread nD τ).loc b))

/-- The windows' index maps, decided over the 20 grid points: the output's block index is `(t, 0)`, the rows' and the
    scale column's blocks move with it, and the bias row's block stays at `(0, 0)`. -/
theorem index_facts : ∀ t : Fin cfg1.N, win1_3.index t (0 : Fin 2) = t.val
    ∧ win1_3.index t (1 : Fin 2) = 0
    ∧ win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0 :=
  (by decide +kernel : ∀ t : Fin grid1.N, _)

/-- What grid point `t` writes back is block `t` of the scaled and shifted rows. -/
theorem flushed_eq (c : Dev nD) (t : Fin cfg1.N) :
    (dat1 (F := Ideal) V c).flushed 3 t
      = ((cfg1.win 3).blk t).view.read (Elt Ideal) (Cert.Spec.scaleShift (V c main_v26) (V c main_v15) (V c main_v27)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  obtain ⟨e30, e31, e00, e01, e10, e11, e20, e21⟩ := index_facts t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
      = Cert.Spec.scaleShift (V c main_v26) (V c main_v15) (V c main_v27) (((cfg1.win 3).blk t).view.emb (ix2 p q))
  refine (payload_apply _ _ _ p q).trans ?_
  -- a block's coordinate on an axis is (block index) × (block size) + 1 × (the coordinate inside the block)
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : ((cfg1.win 1).blk t).view.emb (ix2 p (0 : Fin 1))
      = ix2 ((((cfg1.win 3).blk t).view.emb (ix2 p q)) 0 : Fin 100000) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : ((cfg1.win 2).blk t).view.emb (ix2 (0 : Fin 1) q)
      = ix2 (0 : Fin 1) ((((cfg1.win 3).blk t).view.emb (ix2 p q)) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact congrArg₂ (· + ·) (congrArg₂ (· * ·) (congrArg (V c main_v26) h0) (congrArg (V c main_v15) h1))
    (congrArg (V c main_v27) h2)

/-- An index of the array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- The 20 blocks of 5000 rows tile the 100000 rows: row `r` lies in the block of point `r / 5000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < 20 := by omega
  obtain ⟨e30, e31, -⟩ := index_facts ⟨(i 0).val / 5000, ht⟩
  have r0 : win1_3.index ⟨(i 0).val / 5000, ht⟩ (0 : Fin 2) = (i 0).val / 5000 := e30
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    omega

/-- The output array after the region: every row of the aggregated rows scaled by its node's factor, the bias row
    added. Each point writes its block of that array, and the blocks cover it. -/
theorem final (c : Dev nD) :
    (dat1 (F := Ideal) V c).arrAt 3 cfg1.N = Cert.Spec.scaleShift (V c main_v26) (V c main_v15) (V c main_v27) :=
  (dat1 (F := Ideal) V c).arrAt_eq_of_cover 3 _ (fun t _ => flushed_eq V c t) covered

end Cert.KernelIdeal.Region1

end
-- ==== Proof.KernelValue.lean ====
/-
  The kernel program's result as one function of its four arguments, at the ideal instance.

  The run's buffer contents at the segment boundaries are a fold from the launch memory: three stretches of host
  operations, the first kernel, one stretch, the second kernel. Walking the result back through it:

    the second kernel leaves   out[r, q] = agg[r, q] · f[r] + b[q]                       (its 20 blocks cover the array),
    the stretch before it      agg = scatter-add at the targets of the rows of `h2` gathered at the wrapped sources,
    the first kernel leaves    h2[r, q] = (x · W)[r, q] · f[r]                           (its 20 blocks cover the array),
    the stretches before it    f = degree > 0 ? degree^(-1/2) : 0, kept as a column, from the edge list alone;

  every other buffer a kernel or a stretch reads is one no earlier segment wrote, so it holds what it held before.
-/
import proofs.«417281_j10161892622614_3_alg».proof.Proof.KernelHost
import proofs.«417281_j10161892622614_3_alg».proof.Proof.Region0
import proofs.«417281_j10161892622614_3_alg».proof.Proof.Region1

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen Cert.KernelIdeal.HostValue

variable (m : (ℓ : Loc nD τ sig) → Buf (Elt Ideal) ℓ) (ρ : Dev nD → PrngReg) (c : Dev nD)

/-! ## At the first kernel's entry -/

theorem entry0_x : V3 m ρ c main_arg0 = m ((c : Thread nD τ).loc main_arg0) :=
  calc V3 m ρ c main_arg0
    _ = W2 m ρ c (Proc.devRef .tc main_arg0) := third_keeps_main_arg0 (W2 m ρ c)
    _ = W1 m ρ c (Proc.devRef .tc main_arg0) := second_keeps_main_arg0 (W1 m ρ c)
    _ = m ((c : Thread nD τ).loc main_arg0) := first_arg0 (W0 m ρ c)

theorem entry0_w : V3 m ρ c main_arg2 = m ((c : Thread nD τ).loc main_arg2) :=
  calc V3 m ρ c main_arg2
    _ = W2 m ρ c (Proc.devRef .tc main_arg2) := third_keeps_main_arg2 (W2 m ρ c)
    _ = W1 m ρ c (Proc.devRef .tc main_arg2) := second_keeps_main_arg2 (W1 m ρ c)
    _ = m ((c : Thread nD τ).loc main_arg2) := first_arg2 (W0 m ρ c)

theorem entry0_sources : V3 m ρ c main_v3 = sources (m ((c : Thread nD τ).loc main_arg1)) :=
  calc V3 m ρ c main_v3
    _ = W2 m ρ c (Proc.devRef .tc main_v3) := third_keeps_main_v3 (W2 m ρ c)
    _ = W1 m ρ c (Proc.devRef .tc main_v3) := second_keeps_main_v3 (W1 m ρ c)
    _ = sources (m ((c : Thread nD τ).loc main_arg1)) := first_sources (W0 m ρ c)

theorem entry0_targets : V3 m ρ c main_v6 = targets (m ((c : Thread nD τ).loc main_arg1)) :=
  calc V3 m ρ c main_v6
    _ = W2 m ρ c (Proc.devRef .tc main_v6) := third_keeps_main_v6 (W2 m ρ c)
    _ = W1 m ρ c (Proc.devRef .tc main_v6) := second_keeps_main_v6 (W1 m ρ c)
    _ = targets (m ((c : Thread nD τ).loc main_arg1)) := first_targets (W0 m ρ c)

theorem entry0_b : V3 m ρ c main_arg3 = m ((c : Thread nD τ).loc main_arg3) :=
  calc V3 m ρ c main_arg3
    _ = W2 m ρ c (Proc.devRef .tc main_arg3) := third_keeps_main_arg3 (W2 m ρ c)
    _ = W1 m ρ c (Proc.devRef .tc main_arg3) := second_keeps_main_arg3 (W1 m ρ c)
    _ = m ((c : Thread nD τ).loc main_arg3) := first_arg3 (W0 m ρ c)

/-- The factor column the kernels read: the guarded inverse square root of the in-degree. -/
theorem entry0_col : V3 m ρ c main_v15 = factorCol (F := Ideal) (m ((c : Thread nD τ).loc main_arg1)) :=
  calc V3 m ρ c main_v15
    _ = shapeCast _ (W2 m ρ c (Proc.devRef .tc main_v14)) shapeCasts_S100000_S100000x1 := third_col (W2 m ρ c)
    _ = shapeCast _ (select (W1 m ρ c (Proc.devRef .tc main_v12)) (W1 m ρ c (Proc.devRef .tc main_v13))
          (broadcastInDim S100000 ![] bcast_S_S100000 (W1 m ρ c (Proc.devRef .tc main_cst_2)))) shapeCasts_S100000_S100000x1 :=
        congrArg (fun v => shapeCast S100000x1 v shapeCasts_S100000_S100000x1) (second_factor (W1 m ρ c))
    _ = factorCol (F := Ideal) (m ((c : Thread nD τ).loc main_arg1)) := by
        rw [show W1 m ρ c (Proc.devRef .tc main_v12) = _ from first_positive (W0 m ρ c),
          show W1 m ρ c (Proc.devRef .tc main_v13) = _ from first_rsqrt (W0 m ρ c),
          show W1 m ρ c (Proc.devRef .tc main_cst_2) = _ from first_zero (W0 m ρ c)]
        rfl

/-! ## At the first kernel's exit -/

/-- The first kernel's result: the matrix product, each row scaled by its node's factor. -/
theorem exit0_rows : V4 m ρ c main_v16
    = Cert.Spec.scaledProduct (m ((c : Thread nD τ).loc main_arg0)) (m ((c : Thread nD τ).loc main_arg2))
        (factorCol (F := Ideal) (m ((c : Thread nD τ).loc main_arg1))) :=
  (W4_arr m ρ c 3).trans ((Cert.KernelIdeal.Region0.final (V3 m ρ) c).trans (by
    rw [entry0_x, entry0_w, entry0_col]))

/-! ## At the second kernel's entry -/

theorem entry1_rows : V5 m ρ c main_v26
    = aggregate (F := Ideal) (Cert.Spec.scaledProduct (m ((c : Thread nD τ).loc main_arg0)) (m ((c : Thread nD τ).loc main_arg2))
          (factorCol (F := Ideal) (m ((c : Thread nD τ).loc main_arg1))))
        (sources (m ((c : Thread nD τ).loc main_arg1))) (targets (m ((c : Thread nD τ).loc main_arg1))) :=
  calc V5 m ρ c main_v26
    _ = aggregate (F := Ideal) (V4 m ρ c main_v16) (V4 m ρ c main_v3) (V4 m ρ c main_v6) := between_rows (W4 m ρ c)
    _ = _ := by
        rw [exit0_rows, show V4 m ρ c main_v3 = _ from (W4_of_ne m ρ c main_v3 (by decide)).trans (entry0_sources m ρ c),
          show V4 m ρ c main_v6 = _ from (W4_of_ne m ρ c main_v6 (by decide)).trans (entry0_targets m ρ c)]

theorem entry1_col : V5 m ρ c main_v15 = factorCol (F := Ideal) (m ((c : Thread nD τ).loc main_arg1)) :=
  calc V5 m ρ c main_v15
    _ = V4 m ρ c main_v15 := between_col (W4 m ρ c)
    _ = V3 m ρ c main_v15 := (W4_arr m ρ c 2).trans (((dat0 (V3 m ρ) c).arrAt_in 2 rfl _).trans (A_eq0 (V3 m ρ) c 2))
    _ = _ := entry0_col m ρ c

theorem entry1_bias : V5 m ρ c main_v27 = biasRow (F := Ideal) (m ((c : Thread nD τ).loc main_arg3)) :=
  calc V5 m ρ c main_v27
    _ = biasRow (F := Ideal) (V4 m ρ c main_arg3) := between_bias (W4 m ρ c)
    _ = _ := by rw [show V4 m ρ c main_arg3 = _ from (W4_of_ne m ρ c main_arg3 (by decide)).trans (entry0_b m ρ c)]

/-! ## The result -/

/-- The kernel program's result array as a function of the launch contents of its four arguments. -/
def result (x : FVec Ideal S100000x128 .f32) (ei : IVec S2x1600000 32) (w : FVec Ideal S128x128 .f32) (b : FVec Ideal S128 .f32) :
    FVec Ideal S100000x128 .f32 :=
  Cert.Spec.scaleShift (aggregate (F := Ideal) (Cert.Spec.scaledProduct x w (factorCol (F := Ideal) ei)) (sources ei) (targets ei))
    (factorCol (F := Ideal) ei) (biasRow (F := Ideal) b)

theorem result_value : W6 m ρ c (Proc.devRef .tc main_v28)
    = result (m ((c : Thread nD τ).loc main_arg0)) (m ((c : Thread nD τ).loc main_arg1))
        (m ((c : Thread nD τ).loc main_arg2)) (m ((c : Thread nD τ).loc main_arg3)) :=
  (W6_arr m ρ c 3).trans ((Cert.KernelIdeal.Region1.final (V5 m ρ) c).trans (by
    rw [entry1_rows, entry1_col, entry1_bias]; rfl))

end Cert.KernelIdeal.ResultValue

end
-- ==== Proof.Aggregate.lean ====
/-
  The algebra that joins the two programs, over literal shapes and with no program in sight.

  Both programs add, into row `i` of a zero `[100000, 128]` array, one 128-vector per edge `e` whose
  target `dst e` is `i` (a scatter-add: the target is read as a signed integer and an edge whose target
  is not a row of the array adds nothing). With `s e` the clamped source row of edge `e`, `h` the
  transformed features and `f` the per-node factor (the inverse square root of the degree, or zero):

    one side adds `h[s e] · f[s e]` per edge and multiplies the finished row by `f[i]`;
    the other adds `h[s e] · (f[s e] · f[t e])` per edge, `t e` the clamped (wrapped) target row.

  An edge that lands on row `i` has `dst e = i` with `0 ≤ i`, so wrapping leaves it alone and clamping
  into `[0, 99999]` too: `f[t e] = f[i]` for every edge of the sum. What is left is
  `(∑ a_e) · f[i] = ∑ (a_e · f[i])` on the extended reals, which holds because `f[i]` is a
  non-negative finite real (multiplication by such a number distributes over every sum of extended
  reals, infinite terms of both signs included).
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Aggregate

open Idealize.ShloMosaic Idealize.ShloMosaic.ValueIdx

/-- Per-node scalars `[100000]`. -/
abbrev Nodes : Shape := ⟨1, ![100000]⟩
/-- Node rows `[100000, 128]`. -/
abbrev Rows : Shape := ⟨2, ![100000, 128]⟩
/-- Per-edge scalars `[1700000]` (the edges, then one self-loop per node). -/
abbrev Edges : Shape := ⟨1, ![1700000]⟩
/-- Per-edge indices kept as a column `[1700000, 1]`. -/
abbrev EdgeCol : Shape := ⟨2, ![1700000, 1]⟩
/-- Per-edge rows `[1700000, 128]`. -/
abbrev EdgeRows : Shape := ⟨2, ![1700000, 128]⟩

/-! ## The per-node factor is a non-negative finite real -/

/-- `x > 0 ? x^(-1/2) : 0` on the extended reals is never negative and never `+∞`: at a positive real it is
    the real `(√x)⁻¹`, at `+∞` it is `0`, and everywhere else the guard picks `0`. -/
theorem invSqrtOrZero_bounds (x : EReal) :
    0 ≤ Scalar.select (Ideal.cmp .ogt x 0) (Ideal.rsqrt x) (0 : EReal)
    ∧ Scalar.select (Ideal.cmp .ogt x 0) (Ideal.rsqrt x) (0 : EReal) ≠ ⊤ := by
  induction x using EReal.rec with
  | bot =>
    have hc : Ideal.cmp .ogt (⊥ : EReal) 0 = 0#1 := by simp [Ideal.cmp]
    rw [hc, select_zero]; exact ⟨le_rfl, EReal.zero_ne_top⟩
  | coe r =>
    by_cases hr : 0 < r
    · have hc : Ideal.cmp .ogt (r : EReal) 0 = 1#1 := by
        have : (0 : EReal) < (r : EReal) := by exact_mod_cast hr
        simp [Ideal.cmp, this]
      rw [hc, select_one, Ideal.rsqrt_coe, if_neg (not_lt.2 hr.le), if_neg hr.ne']
      exact ⟨by exact_mod_cast inv_nonneg.2 (Real.sqrt_nonneg r), EReal.coe_ne_top _⟩
    · have hc : Ideal.cmp .ogt (r : EReal) 0 = 0#1 := by
        have : ¬ (0 : EReal) < (r : EReal) := by exact_mod_cast hr
        simp [Ideal.cmp, this]
      rw [hc, select_zero]; exact ⟨le_rfl, EReal.zero_ne_top⟩
  | top =>
    have hc : Ideal.cmp .ogt (⊤ : EReal) 0 = 1#1 := by simp [Ideal.cmp]
    rw [hc, select_one, Ideal.rsqrt_top]; exact ⟨le_rfl, EReal.zero_ne_top⟩

/-! ## Multiplication by a non-negative finite number distributes over a finite sum -/

theorem sum_mul_of_nonneg_ne_top {ι : Type} (s : Finset ι) (a : ι → EReal) (d : EReal) (h0 : 0 ≤ d) (ht : d ≠ ⊤) :
    (∑ u ∈ s, a u) * d = ∑ u ∈ s, a u * d := by
  classical
  induction s using Finset.induction_on with
  | empty => simp
  | insert e s he ih =>
    rw [Finset.sum_insert he, Finset.sum_insert he, EReal.right_distrib_of_nonneg_of_ne_top h0 ht, ih]

/-! ## Where an edge's row lands, and which row it was read from -/

/-- The scatter of per-edge rows into node rows: the edge's one index names the node row, the 128 lanes go
    across. -/
abbrev rowScatter (wf : ScatterDims.WF Rows EdgeCol EdgeRows [1] [0] [0] 1) : ScatterDims Rows EdgeCol EdgeRows where
  updateWindowDims := [1]
  insertedWindowDims := [0]
  scatterDimsToOperandDims := [0]
  indexVectorDim := 1
  wf := wf

/-- The gather of node rows into per-edge rows: the edge's one index names the node row (clamped), the 128
    lanes come across. -/
abbrev rowGather (wf : GatherDims.WF Rows EdgeCol EdgeRows [1] [0] [] [0] [] 1 ![1, 128]) : GatherDims Rows EdgeCol EdgeRows where
  offsetDims := [1]
  collapsedSliceDims := [0]
  operandBatchingDims := []
  startIndicesBatchingDims := []
  startIndexMap := [0]
  indexVectorDim := 1
  sliceSizes := ![1, 128]
  wf := wf

/-- The take of per-node scalars at a per-edge index column (clamping): one collapsed, start-indexed axis. -/
abbrev takeNodes (wf : GatherDims.WF Nodes EdgeCol Edges [] [0] [] [0] [] 1 ![1]) : GatherDims Nodes EdgeCol Edges where
  offsetDims := []
  collapsedSliceDims := [0]
  operandBatchingDims := []
  startIndicesBatchingDims := []
  startIndexMap := [0]
  indexVectorDim := 1
  sliceSizes := ![1]
  wf := wf

theorem rowScatter_wf : ScatterDims.WF Rows EdgeCol EdgeRows [1] [0] [0] 1 := by decide
theorem rowGather_wf : GatherDims.WF Rows EdgeCol EdgeRows [1] [0] [] [0] [] 1 ![1, 128] := by decide
theorem takeNodes_wf : GatherDims.WF Nodes EdgeCol Edges [] [0] [] [0] [] 1 ![1] := by decide

/-- The index column's entry for the edge that element `u` of the per-edge rows belongs to. -/
abbrev edgeOf (u : EdgeRows.Idx) : EdgeCol.Idx := ix2 (u 0 : Fin 1700000) (0 : Fin 1)

/-- An element of edge `e`'s row that the scatter lands on node row `i` has `dst e = i` as a signed integer. -/
theorem rowScatter_row (wf : ScatterDims.WF Rows EdgeCol EdgeRows [1] [0] [0] 1) (idx : IVec EdgeCol 32)
    (u : EdgeRows.Idx) (i : Rows.Idx) (h : (rowScatter wf).resultIdx? u idx = some i) :
    (idx (edgeOf u)).toInt = ((i 0).val : Int) := by
  unfold ScatterDims.resultIdx? at h
  split at h
  · rename_i hall
    have h0 := (hall 0).1
    have hi : (fun a => (⟨((rowScatter wf).start u idx a + (rowScatter wf).window u a).toNat, by have := hall a; omega⟩ : Fin (Rows.size a))) = i :=
      Option.some.inj h
    have hv : (i 0).val = ((rowScatter wf).start u idx 0 + (rowScatter wf).window u 0).toNat := by rw [← hi]
    have hw : (rowScatter wf).window u 0 = 0 := by
      unfold ScatterDims.window
      rw [dif_neg (show ¬ (0 : Fin 2) ∈ Rows.kept [0] by decide)]
    have hs : (rowScatter wf).start u idx 0 = (idx (edgeOf u)).toInt := by
      unfold ScatterDims.start
      rw [dif_pos (show (0 : Fin 2) ∈ (rowScatter wf).scatterDimsToOperandDims from List.mem_singleton.mpr rfl)]
      have hsi : (rowScatter wf).siIdx u ⟨List.idxOf (0 : Fin 2) (rowScatter wf).scatterDimsToOperandDims,
          List.idxOf_lt_length_iff.2 (List.mem_singleton.mpr rfl)⟩ = edgeOf u := by
        funext b; refine Fin.ext ?_
        match b with
        | ⟨0, _⟩ => rfl
        | ⟨1, _⟩ => rfl
      rw [hsi]
    rw [hw, hs] at hv h0
    omega
  · exact absurd h (by simp)

/-- The node row an element of edge `e`'s gathered row was read from: `src e` read signed and clamped into
    `[0, 99999]`. -/
theorem rowGather_row (wf : GatherDims.WF Rows EdgeCol EdgeRows [1] [0] [] [0] [] 1 ![1, 128]) (idx : IVec EdgeCol 32)
    (u : EdgeRows.Idx) :
    ((rowGather wf).operandIdx u idx 0).val = min (idx (edgeOf u)).toInt.toNat 99999 := by
  show (rowGather wf).start u idx 0 + (rowGather wf).batchCoord u 0 + (rowGather wf).offCoord u 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx u ⟨List.idxOf (0 : Fin 2) (rowGather wf).startIndexMap,
      List.idxOf_lt_length_iff.2 (List.mem_singleton.mpr rfl)⟩ = edgeOf u := by
    funext b; refine Fin.ext ?_
    match b with
    | ⟨0, _⟩ => rfl
    | ⟨1, _⟩ => rfl
  rw [hsi]
  rfl

/-! ## Wrapping a non-negative index leaves it alone -/

/-- `x < 0 ? x + n : x` (signed) is `x` when `x` is not negative. -/
theorem wrap_of_nonneg (x n : BitVec 32) (h : 0 ≤ x.toInt) :
    Scalar.select (IntOp.cmpi .slt x 0#32) (IntOp.addi x n) x = x := by
  have hs : x.slt 0#32 = false := by
    unfold BitVec.slt
    exact decide_eq_false (by rw [show (0#32 : BitVec 32).toInt = 0 from rfl]; omega)
  have hc : IntOp.cmpi .slt x 0#32 = 0#1 := by
    show BitVec.ofBool (x.slt 0#32) = 0#1
    rw [hs]; rfl
  rw [hc, select_zero]

/-! ## The two spellings of one rank-1 index, and of one index-column entry -/

theorem ofFin_eq_ix1 {n : Nat} (p : Fin n) : Shape.Idx.ofFin p = ix1 p := by
  funext a; match a with | ⟨0, _⟩ => rfl

theorem ofFin_eq_ix1_of_val {n : Nat} (p q : Fin n) (h : p.val = q.val) : Shape.Idx.ofFin p = ix1 q := by
  funext a; match a with | ⟨0, _⟩ => exact Fin.ext h

theorem ixP_eq_ix2 {n : Nat} (p : Fin n) : StableHlo.Predicate.ixP p = ix2 p (0 : Fin 1) := by
  funext a; match a with | ⟨0, _⟩ => rfl | ⟨1, _⟩ => rfl

/-! ## The host's accumulating scatter at the ideal instance is the exact sum -/

theorem scatterAdd_ideal {s si su : Shape} (d : ScatterDims s si su) {w : Nat} (z : FVec Ideal s .f32) (idx : IVec si w)
    (upd : FVec Ideal su .f32) : Host.scatterAdd d z idx upd = Ideal.hostScatterAdd d z idx upd := rfl

/-! ## The aggregation law -/

/-- Summed over the edge-row elements that land on element `i` of the node rows: the per-edge term
    `h[s e] · f[s e]`, the finished sum multiplied by `f[i]`, is the sum of `h[s e] · (f[s e] · f[t e])`, where
    `f[s e]` and `f[t e]` are read by the clamping take at the source column and at the wrapped target column.
    `tgtI` agrees with the scatter's own column `dstI` wherever that one is not negative (`htgt`: wrapping). -/
theorem scatter_sum_law
    (wfS : ScatterDims.WF Rows EdgeCol EdgeRows [1] [0] [0] 1)
    (wfG : GatherDims.WF Rows EdgeCol EdgeRows [1] [0] [] [0] [] 1 ![1, 128])
    (dT : GatherDims Nodes EdgeCol Edges) (hcoll : dT.collapsedSliceDims = [0]) (hob : dT.operandBatchingDims = [])
    (hsim : dT.startIndexMap = [0]) (hivd : dT.indexVectorDim = 1)
    (h : Rows.Idx → EReal) (f : Nodes.Idx → EReal) (dstI srcI tgtI : IVec EdgeCol 32)
    (hf : ∀ n, 0 ≤ f n ∧ f n ≠ ⊤)
    (htgt : ∀ e : EdgeCol.Idx, 0 ≤ (dstI e).toInt → tgtI e = dstI e)
    (i : Rows.Idx) [DecidablePred fun u => (rowScatter wfS).resultIdx? u dstI = some i] :
    (∑ u ∈ Finset.univ.filter (fun u => (rowScatter wfS).resultIdx? u dstI = some i),
        h ((rowGather wfG).operandIdx u srcI) * f (ix1 ((rowGather wfG).operandIdx u srcI 0 : Fin 100000)))
      * f (ix1 (i 0 : Fin 100000))
    = ∑ u ∈ Finset.univ.filter (fun u => (rowScatter wfS).resultIdx? u dstI = some i),
        h ((rowGather wfG).operandIdx u srcI)
          * (Host.gather dT f srcI (ix1 (u 0 : Fin 1700000)) * Host.gather dT f tgtI (ix1 (u 0 : Fin 1700000))) := by
  rw [sum_mul_of_nonneg_ne_top _ _ _ (hf _).1 (hf _).2]
  refine Finset.sum_congr rfl fun u hu => ?_
  have hrow := rowScatter_row wfS dstI u i (Finset.mem_filter.1 hu).2
  have hi : (i 0).val < 100000 := (i 0).isLt
  -- the source factor, read by the take: the clamped source row is the row the gathered element came from
  have hsv : min (srcI (StableHlo.Predicate.ixP (u 0 : Fin 1700000))).toInt.toNat (100000 - 1)
      = ((rowGather wfG).operandIdx u srcI 0).val :=
    (congrArg (fun e => min (srcI e).toInt.toNat (100000 - 1)) (ixP_eq_ix2 (u 0 : Fin 1700000))).trans
      (rowGather_row wfG srcI u).symm
  have hsrc : Host.gather dT f srcI (ix1 (u 0 : Fin 1700000))
      = f (ix1 ((rowGather wfG).operandIdx u srcI 0 : Fin 100000)) :=
    (congrArg (Host.gather dT f srcI) (ofFin_eq_ix1 (u 0 : Fin 1700000)).symm).trans
      ((StableHlo.Predicate.gather_take dT hcoll hob hsim hivd f srcI (u 0 : Fin 1700000) (by decide)).trans
        (congrArg f (ofFin_eq_ix1_of_val _ _ hsv)))
  -- the target factor: the edge lands on row `i`, so its wrapped, clamped target is `i`
  have hte : tgtI (StableHlo.Predicate.ixP (u 0 : Fin 1700000)) = dstI (edgeOf u) :=
    (congrArg tgtI (ixP_eq_ix2 (u 0 : Fin 1700000))).trans
      (htgt (edgeOf u) (by rw [hrow]; exact Int.natCast_nonneg _))
  have htv : min (tgtI (StableHlo.Predicate.ixP (u 0 : Fin 1700000))).toInt.toNat (100000 - 1) = (i 0).val :=
    (congrArg (fun w : BitVec 32 => min w.toInt.toNat (100000 - 1)) hte).trans (by rw [hrow]; omega)
  have htg : Host.gather dT f tgtI (ix1 (u 0 : Fin 1700000)) = f (ix1 (i 0 : Fin 100000)) :=
    (congrArg (Host.gather dT f tgtI) (ofFin_eq_ix1 (u 0 : Fin 1700000)).symm).trans
      ((StableHlo.Predicate.gather_take dT hcoll hob hsim hivd f tgtI (u 0 : Fin 1700000) (by decide)).trans
        (congrArg f (ofFin_eq_ix1_of_val _ _ htv)))
  exact (mul_assoc _ _ _).trans
    (congrArg (fun w => h ((rowGather wfG).operandIdx u srcI) * w) (congrArg₂ (· * ·) hsrc.symm htg.symm))

end Cert.Aggregate

end
-- ==== Proof.Bridge.lean ====
/-
  The reference's result and the kernel program's result are one function of the four arguments.

  Index by index, at row `r` and lane `q`:

    reference   ∑ over the edge-row elements landing on `(r, q)` of  h[s e, q] · (f[s e] · f[t e]),  plus b[q]
    kernel      (∑ over the same elements of  h[s e, q] · f[s e]) · f[r],                          plus b[q]

  with `h = x · W`, `f` the guarded inverse square root of the in-degree (the same function of the edge list on
  both sides), `s e` the wrapped and clamped source, `t e` the wrapped and clamped target. The two scatters are the same
  operation at the same index column, so the sums range over the same elements; the aggregation law (an edge that
  lands on row `r` has target `r`, and `f[r]` is a non-negative finite real) makes them equal.
-/
import proofs.«417281_j10161892622614_3_alg».proof.Proof.KernelValue
import proofs.«417281_j10161892622614_3_alg».proof.Proof.RefRead
import proofs.«417281_j10161892622614_3_alg».proof.Proof.Aggregate
import Idealize.ShloMosaic.Lib.ValueLayout
import Idealize.ShloMosaic.Lib.Pipeline.Value

set_option maxRecDepth 16384

noncomputable section

open scoped BigOperators

namespace Cert.Bridge

open Idealize.ShloMosaic Idealize.ShloMosaic.ValueIdx Cert.Aggregate
open Cert.ReferenceIdeal.PRead

variable (x : Rows.Idx → EReal) (ei : IVec ⟨2, ![2, 1600000]⟩ 32) (w : (⟨2, ![128, 128]⟩ : Shape).Idx → EReal)
  (b : (⟨1, ![128]⟩ : Shape).Idx → EReal)

/-! ## The per-node factor -/

/-- The reference's factor is `degree > 0 ? degree^(-1/2) : 0` at every node. -/
theorem factor_apply (n : Nodes.Idx) :
    val_main_v15 (F := Ideal) ei n
      = Scalar.select (Ideal.cmp .ogt (val_main_v11 (F := Ideal) ei n) 0) (Ideal.rsqrt (val_main_v11 (F := Ideal) ei n)) (0 : EReal) := by
  rw [val_main_v15_apply, val_main_v13_apply, val_main_v14_apply, val_main_v12_apply, val_main_cst_1_apply,
    val_main_call0_v1_apply, val_main_call0_v0_apply, val_main_cst_2_apply]
  simp only [Ideal.ofBits_def, Ideal.ofBits_zero_f32]
  generalize val_main_v11 (F := Ideal) ei n = d
  rfl

/-- So it is a non-negative finite real. -/
theorem factor_bounds (n : Nodes.Idx) : 0 ≤ val_main_v15 (F := Ideal) ei n ∧ val_main_v15 (F := Ideal) ei n ≠ ⊤ := by
  rw [factor_apply]; exact invSqrtOrZero_bounds _

/-! ## The wrapped target column agrees with the scatter's column where that one is not negative -/

theorem wrapped_target (e : EdgeCol.Idx) (h : 0 ≤ (val_main_v42 (F := Ideal) ei e).toInt) :
    val_main_v28 (F := Ideal) ei e = val_main_v42 (F := Ideal) ei e := by
  rw [val_main_v42_apply] at h ⊢
  rw [val_main_v28_apply, val_main_v27_apply, val_main_v24_apply, val_main_v26_apply]
  exact wrap_of_nonneg _ _ h

/-! ## The kernel program's host functions are the reference's stages -/

section SameStages
variable {F : FTy → Type} [FloatOps F] (ej : IVec ⟨2, ![2, 1600000]⟩ 32)

theorem sources_eq : Cert.KernelIdeal.HostValue.sources ej = val_main_v3 (F := F) ej := rfl
theorem targets_eq : Cert.KernelIdeal.HostValue.targets ej = val_main_v6 (F := F) ej := rfl
theorem factor_eq : Cert.KernelIdeal.HostValue.factor (F := F) ej = val_main_v15 (F := F) ej := rfl
theorem wrapCol_eq : Cert.KernelIdeal.HostValue.wrapCol (Cert.KernelIdeal.HostValue.sources ej) = val_main_v36 (F := F) ej := rfl

end SameStages

/-! ## Small reads -/

/-- A vector kept as a column reads, at row `r`, the vector at `r`. -/
theorem col_apply {n : Nat} (v : (⟨1, ![n]⟩ : Shape).Idx → EReal) (h : (⟨1, ![n]⟩ : Shape).ShapeCasts ⟨2, ![n, 1]⟩) (r : Fin n) :
    shapeCast ⟨2, ![n, 1]⟩ v h (ix2 r (0 : Fin 1)) = v (ix1 r) :=
  shapeCast_apply v h _ _ (by
    rw [Shape.rowMajor_val_two, Shape.rowMajor_val_one]
    show r.val = r.val * 1 + 0
    omega)

/-- The reference's matrix product at `(r, q)`, over the plain coordinates. -/
theorem product_apply (o : Rows.Idx) :
    val_main_v7 (F := Ideal) x w o = ∑ k : Fin 128, x (ix2 (o 0 : Fin 100000) k) * w (ix2 k (o 1 : Fin 128)) := by
  rw [val_main_v7_apply]
  refine Finset.sum_congr rfl fun k _ => ?_
  have el : lidx_main_v7 o k = ix2 (o 0 : Fin 100000) k := by
    funext a; match a with | ⟨0, _⟩ => rfl | ⟨1, _⟩ => rfl
  have er : ridx_main_v7 o k = ix2 k (o 1 : Fin 128) := by
    funext a; match a with | ⟨0, _⟩ => rfl | ⟨1, _⟩ => rfl
  exact congrArg₂ (· * ·) (congrArg x el) (congrArg w er)

/-- The reference's zero array. -/
theorem zeros_apply (i : Rows.Idx) : val_main_v41 (F := Ideal) i = 0 := by
  rw [val_main_v41_apply, val_main_cst_8_apply]
  simp only [Ideal.ofBits_def, Ideal.ofBits_zero_f32]

/-- The reference's bias, broadcast along the rows, reads `b[q]`. -/
theorem bias_apply (i : Rows.Idx) : val_main_v45 (F := Ideal) b i = b (ix1 (i 1 : Fin 128)) := by
  rw [val_main_v45_apply, val_main_v44_apply]
  refine congrArg b ?_
  funext a; match a with | ⟨0, _⟩ => rfl

/-- One edge-row element of the reference's messages: the product's row at the clamped source, times the two factors. -/
theorem message_apply (u : EdgeRows.Idx) :
    val_main_v40 (F := Ideal) x ei w u
      = val_main_v7 (F := Ideal) x w ((rowGather rowGather_wf).operandIdx u (val_main_v36 (F := Ideal) ei))
        * (Host.gather (takeNodes takeNodes_wf) (val_main_v15 (F := Ideal) ei) (val_main_v36 (F := Ideal) ei) (ix1 (u 0 : Fin 1700000))
          * Host.gather (takeNodes takeNodes_wf) (val_main_v15 (F := Ideal) ei) (val_main_v28 (F := Ideal) ei) (ix1 (u 0 : Fin 1700000))) := by
  rw [val_main_v40_apply, val_main_v39_apply, val_main_v38_apply, val_main_v30_apply]
  have hj : idx_main_v38 (idx_main_v39 u) = ix1 (u 0 : Fin 1700000) := by
    funext a; match a with | ⟨0, _⟩ => rfl
  rw [hj]
  rfl

/-! ## The two scatters are one operation at one index column -/

section SameScatter
variable {F : FTy → Type} [FloatOps F] (ej : IVec ⟨2, ![2, 1600000]⟩ 32)

theorem reference_scatter (x' : FVec F Rows .f32) (w' : FVec F ⟨2, ![128, 128]⟩ .f32) :
    val_main_v43 (F := F) x' ej w'
      = Host.scatterAdd (rowScatter rowScatter_wf) (val_main_v41 (F := F)) (val_main_v42 (F := F) ej) (val_main_v40 (F := F) x' ej w') := rfl

theorem kernel_scatter (rows : FVec F Rows .f32) :
    Cert.KernelIdeal.HostValue.aggregate (F := F) rows (Cert.KernelIdeal.HostValue.sources ej) (Cert.KernelIdeal.HostValue.targets ej)
      = Host.scatterAdd (rowScatter rowScatter_wf) (val_main_v41 (F := F)) (val_main_v42 (F := F) ej)
          (Host.gather (rowGather rowGather_wf) rows (val_main_v36 (F := F) ej)) := rfl

end SameScatter

/-! ## The two results at an index -/

/-- The row of the product an edge-row element was gathered from. -/
abbrev gatheredRow (u : EdgeRows.Idx) : Rows.Idx := (rowGather rowGather_wf).operandIdx u (val_main_v36 (F := Ideal) ei)

/-- The reference at `(r, q)`: its scatter-add of the messages, plus `b[q]`. -/
theorem reference_apply (i : Rows.Idx) :
    val_main_v46 (F := Ideal) x ei w b i
      = Ideal.hostScatterAdd (rowScatter rowScatter_wf) (val_main_v41 (F := Ideal)) (val_main_v42 (F := Ideal) ei)
          (val_main_v40 (F := Ideal) x ei w) i
        + b (ix1 (i 1 : Fin 128)) := by
  rw [val_main_v46_apply, bias_apply, reference_scatter, scatterAdd_ideal]
  rfl

/-- The first kernel's row at `o`: the product's row times the node's factor. -/
theorem scaled_apply (o : Rows.Idx) :
    Cert.Spec.scaledProduct x w (Cert.KernelIdeal.HostValue.factorCol (F := Ideal) ei) o
      = val_main_v7 (F := Ideal) x w o * val_main_v15 (F := Ideal) ei (ix1 (o 0 : Fin 100000)) := by
  unfold Cert.Spec.scaledProduct
  show (∑ k : Fin 128, x (ix2 (o 0 : Fin 100000) k) * w (ix2 k (o 1 : Fin 128)))
      * Cert.KernelIdeal.HostValue.factorCol (F := Ideal) ei (ix2 (o 0 : Fin 100000) (0 : Fin 1)) = _
  exact congrArg₂ (· * ·) (product_apply x w o).symm
    ((col_apply (Cert.KernelIdeal.HostValue.factor (F := Ideal) ei) _ (o 0 : Fin 100000)).trans (congrFun (factor_eq ei) _))

/-- One edge-row element of the kernel program's messages. -/
theorem gathered_apply (u : EdgeRows.Idx) :
    Host.gather (rowGather rowGather_wf) (Cert.Spec.scaledProduct x w (Cert.KernelIdeal.HostValue.factorCol (F := Ideal) ei))
        (val_main_v36 (F := Ideal) ei) u
      = val_main_v7 (F := Ideal) x w (gatheredRow ei u) * val_main_v15 (F := Ideal) ei (ix1 (gatheredRow ei u 0 : Fin 100000)) :=
  scaled_apply x ei w (gatheredRow ei u)

/-- The kernel program at `(r, q)`: its scatter-add of the gathered scaled rows, times `f[r]`, plus `b[q]`. -/
theorem kernel_apply (i : Rows.Idx) :
    Cert.KernelIdeal.ResultValue.result x ei w b i
      = Ideal.hostScatterAdd (rowScatter rowScatter_wf) (val_main_v41 (F := Ideal)) (val_main_v42 (F := Ideal) ei)
            (Host.gather (rowGather rowGather_wf) (Cert.Spec.scaledProduct x w (Cert.KernelIdeal.HostValue.factorCol (F := Ideal) ei))
              (val_main_v36 (F := Ideal) ei)) i
          * val_main_v15 (F := Ideal) ei (ix1 (i 0 : Fin 100000))
        + b (ix1 (i 1 : Fin 128)) := by
  have hcol : Cert.KernelIdeal.HostValue.factorCol (F := Ideal) ei (ix2 (i 0 : Fin 100000) (0 : Fin 1))
      = val_main_v15 (F := Ideal) ei (ix1 (i 0 : Fin 100000)) :=
    (col_apply (Cert.KernelIdeal.HostValue.factor (F := Ideal) ei) _ (i 0 : Fin 100000)).trans (congrFun (factor_eq ei) _)
  have hrow : Cert.KernelIdeal.HostValue.biasRow (F := Ideal) b (ix2 (0 : Fin 1) (i 1 : Fin 128)) = b (ix1 (i 1 : Fin 128)) :=
    shapeCast_a_1a_apply b _ 0 _
  show Cert.KernelIdeal.HostValue.aggregate (F := Ideal)
          (Cert.Spec.scaledProduct x w (Cert.KernelIdeal.HostValue.factorCol (F := Ideal) ei))
          (Cert.KernelIdeal.HostValue.sources ei) (Cert.KernelIdeal.HostValue.targets ei) i
        * Cert.KernelIdeal.HostValue.factorCol (F := Ideal) ei (ix2 (i 0 : Fin 100000) (0 : Fin 1))
      + Cert.KernelIdeal.HostValue.biasRow (F := Ideal) b (ix2 (0 : Fin 1) (i 1 : Fin 128)) = _
  exact congrArg₂ (· + ·)
    (congrArg₂ (· * ·) (congrFun ((kernel_scatter ei _).trans (scatterAdd_ideal _ _ _ _)) i) hcol) hrow

/-! ## The equation -/

/-- The reference's result is the kernel program's result, whatever the inputs. Both scatters unfold to the operand
    (zero) plus the sum over the same edge-row elements; the aggregation law joins the sums. -/
theorem result_eq : val_main_v46 (F := Ideal) x ei w b = Cert.KernelIdeal.ResultValue.result x ei w b := by
  funext i
  rw [reference_apply, kernel_apply]
  refine congrArg (· + b (ix1 (i 1 : Fin 128))) ?_
  unfold Ideal.hostScatterAdd
  rw [zeros_apply, zero_add, zero_add]
  exact (Finset.sum_congr rfl (fun u _ => message_apply x ei w u)).trans
    ((scatter_sum_law rowScatter_wf rowGather_wf (takeNodes takeNodes_wf) rfl rfl rfl rfl (val_main_v7 (F := Ideal) x w)
        (val_main_v15 (F := Ideal) ei) (val_main_v42 (F := Ideal) ei) (val_main_v36 (F := Ideal) ei) (val_main_v28 (F := Ideal) ei)
        (factor_bounds ei) (wrapped_target ei) i).symm.trans
      (congrArg (· * val_main_v15 (F := Ideal) ei (ix1 (i 0 : Fin 100000)))
        (Finset.sum_congr rfl fun u _ => (gathered_apply x ei w u).symm)))

end Cert.Bridge

end
-- ==== Proof.lean ====
/-
  A graph-convolution layer, `out = D^(-1/2) (A + I) D^(-1/2) (X W) + b`, with the symmetric normalisation folded
  out of the per-edge path, against the plain per-edge form.

  With `f = degree > 0 ? degree^(-1/2) : 0` (the in-degree counted with one self-loop per node), `h = X W`, `s e` and
  `t e` the source and target of edge `e`:

    the reference adds, into row `t e`, the message `h[s e] · (f[s e] · f[t e])` of every edge, then adds `b`;
    the kernel program scales `h` by rows first (`h2[r] = h[r] · f[r]`, inside the matrix-product kernel), adds the
    unscaled gather `h2[s e]` into row `t e`, and a second kernel multiplies the finished row `r` by `f[r]` and adds `b`.

  Every message added into row `r` has `t e = r`, so the two agree as soon as `(∑ a_e) · f[r] = ∑ (a_e · f[r])`, which
  holds on the extended reals because `f[r]` is a non-negative finite real; nothing is asked of the float inputs, and an
  index outside the node range is treated alike on both sides (dropped by the scatter, wrapped and clamped by the gathers).

  The three frames are the generated ones (the reference's from its run); the ideal pass rewrote nothing, so there is
  nothing to preserve; the equivalence is `Cert.Bridge.result_eq` between the kernel program's result, read back through
  its two kernels and the host operations around them, and the reference's last stage.
-/
import proofs.«417281_j10161892622614_3_alg».proof.Defs
import proofs.«417281_j10161892622614_3_alg».proof.Proof.Gen.Kernel
import proofs.«417281_j10161892622614_3_alg».proof.Proof.Gen.Kernel.Frame
import proofs.«417281_j10161892622614_3_alg».proof.Proof.Gen.KernelIdeal
import proofs.«417281_j10161892622614_3_alg».proof.Proof.Gen.KernelIdeal.Frame
import proofs.«417281_j10161892622614_3_alg».proof.Proof.Gen.ReferenceIdeal
import proofs.«417281_j10161892622614_3_alg».proof.Proof.Gen.Pre_finite_inputs
import proofs.«417281_j10161892622614_3_alg».proof.Proof.KernelRun
import proofs.«417281_j10161892622614_3_alg».proof.Proof.KernelValue
import proofs.«417281_j10161892622614_3_alg».proof.Proof.RefRead
import proofs.«417281_j10161892622614_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.PValue.run (F := Ideal) m ρ)

/-- Both programs end at one function of arguments that agree. -/
theorem algebraic : Cert.algebraic_KernelIdeal_ReferenceIdeal := by
  intro m ρ m' ρ' _ hagree
  refine ⟨fun c => Cert.KernelIdeal.ResultValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.result_value m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.PValue.run (F := Ideal) m' ρ')
    rw [Cert.ReferenceIdeal.PRead.val_main_v46_eq, (hagree c).1, (hagree c).2.1, (hagree c).2.2.1, (hagree c).2.2.2]
    exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
